-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x32x64 : Shape := ⟨3, ![11008, 32, 64]⟩
abbrev S11008x32x1 : Shape := ⟨3, ![11008, 32, 1]⟩
abbrev S4096 : Shape := ⟨1, ![4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32x1 : S_.BroadcastsInDim S11008x32x1 (![] : Fin 0 → Fin S11008x32x1.rank)
  reducesTo_S11008x32x1_S_d0_1_2 : S11008x32x1.ReducesTo [0, 1, 2] S_
  bcast_S_S4096 : S_.BroadcastsInDim S4096 (![] : Fin 0 → Fin S4096.rank)
  reducesTo_S4096_S_d0 : S4096.ReducesTo [0] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : IVec S11008x32x64 32) (main_arg2 : FVec F S11008x32x1 .f32) (main_arg3 : FVec F S4096 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32x1 .f32 := Host.absf main_arg2
  let main_cst_0 : FVec F S_ .f32 := constant S_ .f32 0x7F800000#32
  let main_v5 : FVec F S11008x32x1 .f32 := broadcastInDim S11008x32x1 ![] bcast_S_S11008x32x1 main_cst_0
  let main_v6 : IVec S11008x32x1 1 := cmpf .olt main_v4 main_v5
  let main_c_1 : IVec S_ 1 := constantI S_ 1 1#1
  let main_v7 : IVec S_ 1 := (fun x v => Host.reduce IntOp.andi x v reducesTo_S11008x32x1_S_d0_1_2 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S11008x32x64 : Shape := ⟨3, ![11008, 32, 64]⟩
abbrev S11008x32x1 : Shape := ⟨3, ![11008, 32, 1]⟩
abbrev S4096 : Shape := ⟨1, ![4096]⟩
abbrev S11008 : Shape := ⟨1, ![11008]⟩
abbrev S8192x4096 : Shape := ⟨2, ![8192, 4096]⟩
abbrev S1x4096 : Shape := ⟨2, ![1, 4096]⟩
abbrev S1x11008 : Shape := ⟨2, ![1, 11008]⟩
abbrev S8192x11008 : Shape := ⟨2, ![8192, 11008]⟩
abbrev S256x4096 : Shape := ⟨2, ![256, 4096]⟩
abbrev S128x32x64 : Shape := ⟨3, ![128, 32, 64]⟩
abbrev S128x32x1 : Shape := ⟨3, ![128, 32, 1]⟩
abbrev S1x128 : Shape := ⟨2, ![1, 128]⟩
abbrev S256x128 : Shape := ⟨2, ![256, 128]⟩
abbrev S128x32x64x1 : Shape := ⟨4, ![128, 32, 64, 1]⟩
abbrev S128x32x64x2 : Shape := ⟨4, ![128, 32, 64, 2]⟩
abbrev S128x32x128 : Shape := ⟨3, ![128, 32, 128]⟩
abbrev S128x4096 : Shape := ⟨2, ![128, 4096]⟩
abbrev S4x2048x11008 : Shape := ⟨3, ![4, 2048, 11008]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x32x64, .i32⟩
  | .hbm, ⟨2, _⟩ => ⟨S11008x32x1, .f32⟩
  | .hbm, ⟨3, _⟩ => ⟨S4096, .f32⟩
  | .hbm, ⟨4, _⟩ => ⟨S11008, .f32⟩
  | .hbm, ⟨5, _⟩ => ⟨S8192x4096, .f32⟩
  | .hbm, ⟨6, _⟩ => ⟨S1x4096, .f32⟩
  | .hbm, ⟨7, _⟩ => ⟨S1x11008, .f32⟩
  | .hbm, ⟨8, _⟩ => ⟨S8192x11008, .f32⟩
  | .hbm, ⟨9, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S128x32x64, .i32⟩
  | .local _ .vmem, ⟨3, _⟩ => ⟨S128x32x64, .i32⟩
  | .local _ .vmem, ⟨4, _⟩ => ⟨S128x32x1, .f32⟩
  | .local _ .vmem, ⟨5, _⟩ => ⟨S128x32x1, .f32⟩
  | .local _ .vmem, ⟨6, _⟩ => ⟨S1x4096, .f32⟩
  | .local _ .vmem, ⟨7, _⟩ => ⟨S1x128, .f32⟩
  | .local _ .vmem, ⟨8, _⟩ => ⟨S1x128, .f32⟩
  | .local _ .vmem, ⟨9, _⟩ => ⟨S256x128, .f32⟩
  | .local _ .vmem, ⟨10, _⟩ => ⟨S256x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x32x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S4096_S1x4096 : S4096.ShapeCasts S1x4096
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  bitsLt_bf16_f32 : FTy.bits .bf16 < FTy.bits .f32
  inb_S128x32x64_S128x32x64_0_0_0 : ∀ a, (![0, 0, 0] : Fin 3 → Nat) a + S128x32x64.size a ≤ S128x32x64.size a
  h_S128x32x64 : 0 < S128x32x64.numel
  shapeCasts_S128x32x64_S128x32x64x1 : S128x32x64.ShapeCasts S128x32x64x1
  concatenates_S128x32x64x1_S128x32x64x1_S128x32x64x2_d3 : Shape.Concatenates [S128x32x64x1, S128x32x64x1] S128x32x64x2 3
  shapeCasts_S128x32x64x2_S128x32x128 : S128x32x64x2.ShapeCasts S128x32x128
  inb_S128x32x1_S128x32x1_0_0_0 : ∀ a, (![0, 0, 0] : Fin 3 → Nat) a + S128x32x1.size a ≤ S128x32x1.size a
  h_S128x32x1 : 0 < S128x32x1.numel
  broadcasts_S128x32x1_S128x32x128 : S128x32x1.Broadcasts S128x32x128
  shapeCasts_S128x32x128_S128x4096 : S128x32x128.ShapeCasts S128x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S8192x11008_S4x2048x11008 : S8192x11008.ShapeCasts S4x2048x11008
  dot_S256x4096_S128x4096_S256x128_1_1_0_0_n_n_wf : DotDims.WF S256x4096 S128x4096 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x64.size a ≤ S11008x32x64.size a
  hwx0_1 : ∀ i : grid0.Coords, EltTy.bits .i32 = 32 ∨ (Rect.block (s := S11008x32x64) S128x32x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32x1.size a ≤ S11008x32x1.size a
  hwx0_2 : ∀ i : grid0.Coords, EltTy.bits .f32 = 32 ∨ (Rect.block (s := S11008x32x1) S128x32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x11008.size a
  hwx0_4 : ∀ i : grid0.Coords, EltTy.bits .f32 = 32 ∨ (Rect.block (s := S1x11008) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S8192x11008.size a
  hwx0_5 : ∀ i : grid0.Coords, EltTy.bits .f32 = 32 ∨ (Rect.block (s := S8192x11008) S256x128.size (cc0_transform_5 i) (hinb0_5 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x32x64 : Shape := ⟨3, ![11008, 32, 64]⟩
abbrev S11008x32x1 : Shape := ⟨3, ![11008, 32, 1]⟩
abbrev S4096 : Shape := ⟨1, ![4096]⟩
abbrev S11008 : Shape := ⟨1, ![11008]⟩
abbrev S_ : Shape := ⟨0, ![]⟩
abbrev S11008x32x64x1 : Shape := ⟨4, ![11008, 32, 64, 1]⟩
abbrev S11008x32x64x2 : Shape := ⟨4, ![11008, 32, 64, 2]⟩
abbrev S11008x32x128 : Shape := ⟨3, ![11008, 32, 128]⟩
abbrev S11008x4096 : Shape := ⟨2, ![11008, 4096]⟩
abbrev S1x1x4096 : Shape := ⟨3, ![1, 1, 4096]⟩
abbrev S4x2048x11008 : Shape := ⟨3, ![4, 2048, 11008]⟩
abbrev S1x1x11008 : Shape := ⟨3, ![1, 1, 11008]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x32x64, .i32⟩
  | .hbm, ⟨2, _⟩ => ⟨S11008x32x1, .f32⟩
  | .hbm, ⟨3, _⟩ => ⟨S4096, .f32⟩
  | .hbm, ⟨4, _⟩ => ⟨S11008, .f32⟩
  | .hbm, ⟨5, _⟩ => ⟨S_, .i32⟩
  | .hbm, ⟨6, _⟩ => ⟨S11008x32x64, .i32⟩
  | .hbm, ⟨7, _⟩ => ⟨S11008x32x64, .i32⟩
  | .hbm, ⟨8, _⟩ => ⟨S_, .i32⟩
  | .hbm, ⟨9, _⟩ => ⟨S11008x32x64, .i32⟩
  | .hbm, ⟨10, _⟩ => ⟨S11008x32x64, .i32⟩
  | .hbm, ⟨11, _⟩ => ⟨S_, .i32⟩
  | .hbm, ⟨12, _⟩ => ⟨S11008x32x64, .i32⟩
  | .hbm, ⟨13, _⟩ => ⟨S11008x32x64, .i32⟩
  | .hbm, ⟨14, _⟩ => ⟨S11008x32x64x1, .i32⟩
  | .hbm, ⟨15, _⟩ => ⟨S11008x32x64x1, .i32⟩
  | .hbm, ⟨16, _⟩ => ⟨S11008x32x64x2, .i32⟩
  | .hbm, ⟨17, _⟩ => ⟨S_, .i32⟩
  | .hbm, ⟨18, _⟩ => ⟨S11008x32x64x2, .i32⟩
  | .hbm, ⟨19, _⟩ => ⟨S11008x32x64x2, .i1⟩
  | .hbm, ⟨20, _⟩ => ⟨S_, .i32⟩
  | .hbm, ⟨21, _⟩ => ⟨S11008x32x64x2, .i32⟩
  | .hbm, ⟨22, _⟩ => ⟨S11008x32x64x2, .i32⟩
  | .hbm, ⟨23, _⟩ => ⟨S11008x32x64x2, .i32⟩
  | .hbm, ⟨24, _⟩ => ⟨S11008x32x128, .i32⟩
  | .hbm, ⟨25, _⟩ => ⟨S11008x32x128, .f32⟩
  | .hbm, ⟨26, _⟩ => ⟨S11008x32x128, .f32⟩
  | .hbm, ⟨27, _⟩ => ⟨S11008x32x128, .f32⟩
  | .hbm, ⟨28, _⟩ => ⟨S11008x4096, .f32⟩
  | .hbm, ⟨29, _⟩ => ⟨S1x1x4096, .f32⟩
  | .hbm, ⟨30, _⟩ => ⟨S4x2048x4096, .f32⟩
  | .hbm, ⟨31, _⟩ => ⟨S4x2048x4096, .f32⟩
  | .hbm, ⟨32, _⟩ => ⟨S4x2048x11008, .f32⟩
  | .hbm, ⟨33, _⟩ => ⟨S1x1x11008, .f32⟩
  | .hbm, ⟨34, _⟩ => ⟨S4x2048x11008, .f32⟩
  | .hbm, ⟨35, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S11008x32x64 : S_.BroadcastsInDim S11008x32x64 (![] : Fin 0 → Fin S11008x32x64.rank)
  bcast_S11008x32x64_S11008x32x64x1_0_1_2 : S11008x32x64.BroadcastsInDim S11008x32x64x1 (![0, 1, 2] : Fin 3 → Fin S11008x32x64x1.rank)
  concatenates_S11008x32x64x1_S11008x32x64x1_S11008x32x64x2_d3 : Shape.Concatenates [S11008x32x64x1, S11008x32x64x1] S11008x32x64x2 3
  bcast_S_S11008x32x64x2 : S_.BroadcastsInDim S11008x32x64x2 (![] : Fin 0 → Fin S11008x32x64x2.rank)
  shapeCasts_S11008x32x64x2_S11008x32x128 : S11008x32x64x2.ShapeCasts S11008x32x128
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Dequant.lean ====
/-
  The dequantized weight, entry by entry. A packed word holds two 4-bit fields, the low one first; a field u reads
  as the signed integer u - 16 from 8 on and as u below; column k of a row of 4096 lies in group k / 128, at place
  k % 128 of the group, in packed word (k % 128) / 2 and field (k % 128) % 2; the weight there is that signed integer,
  as a real, times the group's scale. Stated for any number of rows, so that one definition serves a tile of 128 rows
  and the whole table. The layout steps that both programs take - two fields joined along a new last axis, the pairs
  flattened, the groups flattened - are read at an index here, once.
-/
import Idealize.ShloMosaic.Lib.ValueIdx
import Idealize.ShloMosaic.Lib.Pipeline.Value
import Idealize.ShloMosaic.PureOps.Ideal.Laws

noncomputable section

namespace Cert.Dequant

open Idealize.ShloMosaic Idealize.ShloMosaic.ValueIdx

/-- The 4-bit field of a packed word: the low four bits for `b = 0`, bits 4 to 7 otherwise. -/
def field (p : BitVec 32) (b : Nat) : BitVec 32 :=
  if b = 0 then IntOp.andi p 15#32 else IntOp.andi (IntOp.shrsi .vector p 4#32) 15#32

/-- A field read as a signed 4-bit integer: u - 16 from 8 on, u below. -/
def signed (u : BitVec 32) : BitVec 32 := Scalar.select (IntOp.cmpi .sge u 8#32) (IntOp.subi u 16#32) u

/-- An arithmetic shift by four is the plain shift on every unit: the amount is below the width. -/
theorem shrsi_four (u : ArithUnit) (p : BitVec 32) : IntOp.shrsi u p 4#32 = IntOp.shrsi .vector p 4#32 := by
  unfold IntOp.shrsi
  rw [if_pos (by decide), if_pos (by decide)]

variable {R : Nat}

/-- The weight at row `o`, group `g`, place `l` of the group. -/
def entry (P : (⟨3, ![R, 32, 64]⟩ : Shape).Idx → BitVec 32) (Sc : (⟨3, ![R, 32, 1]⟩ : Shape).Idx → EReal)
    (o : Fin R) (g : Fin 32) (l : Fin 128) : EReal :=
  (FloatOps.sitofp (F := Ideal) .f32 (signed (field (P (ix3 o g ⟨l.val / 2, by have := l.isLt; omega⟩)) (l.val % 2))) : EReal)
    * Sc (ix3 o g ⟨0, Nat.one_pos⟩)

/-- The weight at row `o`, column `k` of the dense [R, 4096] table. -/
def wAt (P : (⟨3, ![R, 32, 64]⟩ : Shape).Idx → BitVec 32) (Sc : (⟨3, ![R, 32, 1]⟩ : Shape).Idx → EReal)
    (o : Fin R) (k : Fin 4096) : EReal :=
  entry P Sc o ⟨k.val / 128, by have := k.isLt; omega⟩ ⟨k.val % 128, Nat.mod_lt _ (by decide)⟩

/-! ## The layout steps read at an index -/

/-- [R, 32, 128] flattened to [R, 4096]: column k is place k % 128 of group k / 128. -/
theorem flatten_groups_apply {α : Type} (y : (⟨3, ![R, 32, 128]⟩ : Shape).Idx → α)
    (h : (⟨3, ![R, 32, 128]⟩ : Shape).ShapeCasts ⟨2, ![R, 4096]⟩) (o : Fin R) (k : Fin 4096) :
    shapeCast ⟨2, ![R, 4096]⟩ y h (ix2 o k)
      = y (ix3 o ⟨k.val / 128, by have := k.isLt; omega⟩ ⟨k.val % 128, Nat.mod_lt _ (by decide)⟩) := by
  refine shapeCast_apply y h _ _ ?_
  rw [Shape.rowMajor_val_three, Shape.rowMajor_val_two]
  show (o.val * 32 + k.val / 128) * 128 + k.val % 128 = o.val * 4096 + k.val
  omega

/-- [R, 32, 64, 2] flattened to [R, 32, 128]: place l is field l % 2 of packed word l / 2. -/
theorem flatten_pairs_apply {α : Type} (y : (⟨4, ![R, 32, 64, 2]⟩ : Shape).Idx → α)
    (h : (⟨4, ![R, 32, 64, 2]⟩ : Shape).ShapeCasts ⟨3, ![R, 32, 128]⟩) (o : Fin R) (g : Fin 32) (l : Fin 128) :
    shapeCast ⟨3, ![R, 32, 128]⟩ y h (ix3 o g l)
      = y (ix4 o g ⟨l.val / 2, by have := l.isLt; omega⟩ ⟨l.val % 2, Nat.mod_lt _ (by decide)⟩) := by
  refine shapeCast_apply y h _ _ ?_
  rw [Shape.rowMajor_val_four, Shape.rowMajor_val_three]
  show ((o.val * 32 + g.val) * 64 + l.val / 2) * 2 + l.val % 2 = (o.val * 32 + g.val) * 128 + l.val
  omega

/-- Two [R, 32, 64, 1] arrays joined along the last axis: field 0 is the first, field 1 the second. -/
theorem join_fields_apply {α : Type} (x₁ x₂ : (⟨4, ![R, 32, 64, 1]⟩ : Shape).Idx → α)
    (h : Shape.Concatenates [(⟨4, ![R, 32, 64, 1]⟩ : Shape), ⟨4, ![R, 32, 64, 1]⟩] ⟨4, ![R, 32, 64, 2]⟩ 3)
    (o : Fin R) (g : Fin 32) (w : Fin 64) (b : Fin 2) :
    concatenate ⟨4, ![R, 32, 64, 2]⟩ 3 [⟨⟨4, ![R, 32, 64, 1]⟩, x₁⟩, ⟨⟨4, ![R, 32, 64, 1]⟩, x₂⟩] h (ix4 o g w b)
      = if b.val = 0 then x₁ (ix4 o g w ⟨0, Nat.one_pos⟩) else x₂ (ix4 o g w ⟨0, Nat.one_pos⟩) := by
  by_cases hb : b.val = 0
  · rw [if_pos hb]
    refine concatenate_pair_apply_left (3 : Fin (⟨4, ![R, 32, 64, 2]⟩ : Shape).rank) x₁ x₂ h (ix4 o g w b) rfl
      (ix4 o g w ⟨0, Nat.one_pos⟩) (fun a => ?_)
    match a with
    | ⟨0, _⟩ => rfl
    | ⟨1, _⟩ => rfl
    | ⟨2, _⟩ => rfl
    | ⟨3, _⟩ => exact hb.symm
  · rw [if_neg hb]
    refine concatenate_pair_apply_right (3 : Fin (⟨4, ![R, 32, 64, 2]⟩ : Shape).rank) x₁ x₂ h (ix4 o g w b) rfl rfl
      (ix4 o g w ⟨0, Nat.one_pos⟩) (fun a ha => ?_) ?_
    · match a with
      | ⟨0, _⟩ => rfl
      | ⟨1, _⟩ => rfl
      | ⟨2, _⟩ => rfl
      | ⟨3, _⟩ => exact absurd rfl ha
    · show 0 + 1 = b.val
      have := b.isLt
      omega

/-- [R, 32, 64] given a last axis of one: the entry is unchanged. -/
theorem add_last_axis_apply {α : Type} (y : (⟨3, ![R, 32, 64]⟩ : Shape).Idx → α)
    (h : (⟨3, ![R, 32, 64]⟩ : Shape).ShapeCasts ⟨4, ![R, 32, 64, 1]⟩) (o : Fin R) (g : Fin 32) (w : Fin 64) :
    shapeCast ⟨4, ![R, 32, 64, 1]⟩ y h (ix4 o g w ⟨0, Nat.one_pos⟩) = y (ix3 o g w) := by
  refine shapeCast_apply y h _ _ ?_
  rw [Shape.rowMajor_val_four, Shape.rowMajor_val_three]
  show (o.val * 32 + g.val) * 64 + w.val = ((o.val * 32 + g.val) * 64 + w.val) * 1 + 0
  omega

/-- The low fields and the high fields of a packed array joined along the last axis: entry (o, g, w, b) is field `b` of
    packed word (o, g, w). -/
theorem joined_fields_apply (P : (⟨3, ![R, 32, 64]⟩ : Shape).Idx → BitVec 32)
    (x₁ x₂ : (⟨4, ![R, 32, 64, 1]⟩ : Shape).Idx → BitVec 32)
    (h : Shape.Concatenates [(⟨4, ![R, 32, 64, 1]⟩ : Shape), ⟨4, ![R, 32, 64, 1]⟩] ⟨4, ![R, 32, 64, 2]⟩ 3)
    (h₁ : ∀ (o : Fin R) (g : Fin 32) (w : Fin 64), x₁ (ix4 o g w ⟨0, Nat.one_pos⟩) = IntOp.andi (P (ix3 o g w)) 15#32)
    (h₂ : ∀ (o : Fin R) (g : Fin 32) (w : Fin 64),
      x₂ (ix4 o g w ⟨0, Nat.one_pos⟩) = IntOp.andi (IntOp.shrsi .vector (P (ix3 o g w)) 4#32) 15#32)
    (o : Fin R) (g : Fin 32) (w : Fin 64) (b : Fin 2) :
    concatenate ⟨4, ![R, 32, 64, 2]⟩ 3 [⟨⟨4, ![R, 32, 64, 1]⟩, x₁⟩, ⟨⟨4, ![R, 32, 64, 1]⟩, x₂⟩] h (ix4 o g w b)
      = field (P (ix3 o g w)) b.val := by
  rw [join_fields_apply, h₁, h₂]
  rfl

/-! ## The dense tile -/

/-- The flattened product of the signed fields (as reals) and the scales spread over each group, at (o, k): the weight
    there. `q` is the array of signed fields by row, group and place; `bsc` the scales, one per row and group. -/
theorem tile_apply (P : (⟨3, ![R, 32, 64]⟩ : Shape).Idx → BitVec 32) (Sc : (⟨3, ![R, 32, 1]⟩ : Shape).Idx → EReal)
    (q : IVec ⟨3, ![R, 32, 128]⟩ 32) (bsc : FVec Ideal ⟨3, ![R, 32, 128]⟩ .f32)
    (h : (⟨3, ![R, 32, 128]⟩ : Shape).ShapeCasts ⟨2, ![R, 4096]⟩)
    (hq : ∀ (o : Fin R) (g : Fin 32) (l : Fin 128),
      q (ix3 o g l) = signed (field (P (ix3 o g ⟨l.val / 2, by have := l.isLt; omega⟩)) (l.val % 2)))
    (hsc : ∀ (o : Fin R) (g : Fin 32) (l : Fin 128), bsc (ix3 o g l) = Sc (ix3 o g ⟨0, Nat.one_pos⟩))
    (o : Fin R) (k : Fin 4096) :
    shapeCast ⟨2, ![R, 4096]⟩ (mulf (sitofp (F := Ideal) .f32 q) bsc) h (ix2 o k) = wAt P Sc o k := by
  rw [flatten_groups_apply]
  show (FloatOps.sitofp (F := Ideal) .f32 (q _) : EReal) * bsc _ = _
  rw [hq, hsc]
  rfl

end Cert.Dequant

end
-- ==== Proof.LibDotLastAxes.lean ====
/-
  A matrix product that contracts the LAST axis of both operands, read at an element, at the extended reals: for
  dimension numbers that contract the left operand's axis 1 with the right operand's axis 1 and have no batch axis
  ([M, K] by [N, K], the right operand used transposed), the contraction at (p, q) is the sum over k of
  lhs[p, k] * rhs[q, k] - for a kernel's matmul into a zero accumulator and for the host's dot_general alike.
  General lemmas over any sizes; they import no program.
-/
import Idealize.ShloMosaic.Lib.ValueIdx
import Idealize.ShloMosaic.PureOps.Ideal.Laws

noncomputable section

open scoped BigOperators

namespace Idealize.ShloMosaic.DotLastAxes

open Idealize.ShloMosaic Idealize.ShloMosaic.ValueIdx

/-- The dimension numbers that contract both last axes, over any well-formedness proof. -/
abbrev lastDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row is the output's row ... -/
theorem lhs_0 (i : (⟨2, ![M, N]⟩ : Shape).Idx) (q : (lastDims M K N wf).contr.Idx) :
    ((lastDims M K N wf).lhsIdx i q 0).val = (i 0).val := by
  unfold DotDims.lhsIdx
  rw [dif_neg (show ¬(0 : Fin (⟨2, ![M, K]⟩ : Shape).rank) ∈ (lastDims M K N wf).lhsBatch from List.not_mem_nil),
    dif_pos (show (0 : Fin (⟨2, ![M, K]⟩ : Shape).rank) ∈ (lastDims M K N wf).lhsNonContracting from List.mem_singleton.mpr rfl)]
  rfl
/-- ... its column the contracted coordinate ... -/
theorem lhs_1 (i : (⟨2, ![M, N]⟩ : Shape).Idx) (q : (lastDims M K N wf).contr.Idx) :
    ((lastDims M K N wf).lhsIdx i q 1).val = (q ⟨0, (Nat.one_pos : 0 < (lastDims M K N wf).contr.rank)⟩).val :=
  (lastDims M K N wf).lhsIdx_val_of_single rfl i q
/-- ... the right operand's row the output's column ... -/
theorem rhs_0 (i : (⟨2, ![M, N]⟩ : Shape).Idx) (q : (lastDims M K N wf).contr.Idx) :
    ((lastDims M K N wf).rhsIdx i q 0).val = (i 1).val := by
  unfold DotDims.rhsIdx
  rw [dif_neg (show ¬(0 : Fin (⟨2, ![N, K]⟩ : Shape).rank) ∈ (lastDims M K N wf).rhsBatch from List.not_mem_nil),
    dif_pos (show (0 : Fin (⟨2, ![N, K]⟩ : Shape).rank) ∈ (lastDims M K N wf).rhsNonContracting from List.mem_singleton.mpr rfl)]
  rfl
/-- ... and its column the contracted coordinate. -/
theorem rhs_1 (i : (⟨2, ![M, N]⟩ : Shape).Idx) (q : (lastDims M K N wf).contr.Idx) :
    ((lastDims M K N wf).rhsIdx i q 1).val = (q ⟨0, (Nat.one_pos : 0 < (lastDims M K N wf).contr.rank)⟩).val :=
  (lastDims M K N wf).rhsIdx_val_of_single rfl i q

/-- The contraction sum at (p, q), re-indexed by the contracted coordinate. -/
theorem last_sum (l : (⟨2, ![M, K]⟩ : Shape).Idx → EReal) (r : (⟨2, ![N, K]⟩ : Shape).Idx → EReal) (p : Fin M) (q : Fin N) :
    ∑ k : (lastDims M K N wf).contr.Idx, l ((lastDims M K N wf).lhsIdx (ix2 p q) k) * r ((lastDims M K N wf).rhsIdx (ix2 p q) k)
      = ∑ k : Fin K, l (ix2 p k) * r (ix2 q k) := by
  rw [← Equiv.sum_comp (contrEquiv1 (lastDims M K N wf) K rfl rfl).symm]
  refine Finset.sum_congr rfl fun k _ => ?_
  have hk := contrEquiv1_symm_val (lastDims M K N wf) K rfl rfl k
  have el : (lastDims M K N wf).lhsIdx (ix2 p q) ((contrEquiv1 (lastDims M K N wf) K rfl rfl).symm k) = ix2 p k :=
    funext fun a => Fin.ext (by
      match a with
      | ⟨0, _⟩ => exact lhs_0 wf _ _
      | ⟨1, _⟩ => exact (lhs_1 wf _ _).trans hk)
  have er : (lastDims M K N wf).rhsIdx (ix2 p q) ((contrEquiv1 (lastDims M K N wf) K rfl rfl).symm k) = ix2 q k :=
    funext fun a => Fin.ext (by
      match a with
      | ⟨0, _⟩ => exact rhs_0 wf _ _
      | ⟨1, _⟩ => exact (rhs_1 wf _ _).trans hk)
  rw [el, er]

/-- The same for any record of dimension numbers whose six lists are these. -/
theorem contr_sum_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf'⟩ := d
  dsimp only at hlc hrc hln hrn hlb hrb
  subst hlc hrc hln hrn hlb hrb
  exact last_sum wf' l r p q

/-- A kernel's matmul into the zero accumulator, at (p, q): the sum over k of lhs[p, k] * rhs[q, k]. -/
theorem matmul_zero_apply {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ k : Fin K, l (ix2 p k) * r (ix2 q k) := by
  rw [Ideal.matmul_constant_zero_apply]
  exact contr_sum_apply d hlc hrc hln hrn hlb hrb l r p q

/-- The host's dot_general, at (p, q): the same sum. -/
theorem dotGeneral_apply {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule) (l : FVec Ideal ⟨2, ![M, K]⟩ φ₁) (r : FVec Ideal ⟨2, ![N, K]⟩ φ₂)
    (p : Fin M) (q : Fin N) :
    FloatOps.dotGeneral d prec sched l r (ix2 p q) = ∑ k : Fin K, l (ix2 p k) * r (ix2 q k) := by
  rw [Ideal.dotGeneral_apply]
  exact contr_sum_apply d hlc hrc hln hrn hlb hrb l r p q

end Idealize.ShloMosaic.DotLastAxes

end
-- ==== Proof.TilePayload.lean ====
/-
  What the kernel body stores, entry by entry. On a tile of 256 activation rows and 128 weight rows the body scales
  each activation by the inverse scale of its column, unpacks and dequantizes the weight rows, contracts the two over
  the 4096 columns and adds the bias: entry (r, c) of the stored block is the sum over k of
  (x[r, k] * inv[k]) * w[c, k], plus bias[c], with w the dequantized weight of the tile's packed rows and scales.
  The two roundings to bf16 are the identity on the extended reals.
-/
import proofs.«406505_j26113401159880_1_alg».proof.Proof.Gen.KernelIdeal.Skeleton
import proofs.«406505_j26113401159880_1_alg».proof.Proof.Dequant
import proofs.«406505_j26113401159880_1_alg».proof.Proof.LibDotLastAxes

noncomputable section

open scoped BigOperators

namespace Cert.KernelIdeal.Tile

open Cert.KernelIdeal Cert.KernelIdeal.Gen Idealize.ShloMosaic Idealize.ShloMosaic.ValueIdx Cert.Dequant

/-- The activation operand of the contraction at (r, k): the activation times its column's inverse scale. -/
theorem act_apply (v0 : Vec Ideal S256x4096 .f32) (v2 : Vec Ideal S1x4096 .f32) (r : Fin 256) (k : Fin 4096) :
    (truncf .bf16 (mulf (shapeCast S256x4096 v0 shapeCasts_S256x4096_S256x4096)
        (broadcastTo S256x4096 (shapeCast S1x4096 v2 shapeCasts_S1x4096_S1x4096) broadcasts_S1x4096_S256x4096))
      bitsLt_bf16_f32 : FVec Ideal S256x4096 .bf16) (ix2 r k)
      = v0 (ix2 r k) * v2 (ix2 ⟨0, Nat.one_pos⟩ k) := by
  show (shapeCast S256x4096 v0 shapeCasts_S256x4096_S256x4096) (ix2 r k)
      * (broadcastTo S256x4096 (shapeCast S1x4096 v2 shapeCasts_S1x4096_S1x4096) broadcasts_S1x4096_S256x4096) (ix2 r k) = _
  rw [shapeCast_self, shapeCast_self,
    broadcastTo_apply v2 broadcasts_S1x4096_S256x4096 (ix2 r k) (ix2 ⟨0, Nat.one_pos⟩ k) (fun a => by
      match a with
      | ⟨0, _⟩ => rfl
      | ⟨1, _⟩ => rfl)]

/-- The array of signed fields the body forms from the packed tile. -/
abbrev signedFields (v7 : Vec Ideal S128x32x64 .i32) : IVec S128x32x128 32 :=
  select (cmpi .sge (shapeCast S128x32x128 (concatenate S128x32x64x2 3
      [⟨S128x32x64x1, shapeCast S128x32x64x1 (andi v7 (broadcast S128x32x64 15#32)) shapeCasts_S128x32x64_S128x32x64x1⟩,
       ⟨S128x32x64x1, shapeCast S128x32x64x1 (andi (shrsi v7 (broadcast S128x32x64 4#32)) (broadcast S128x32x64 15#32)) shapeCasts_S128x32x64_S128x32x64x1⟩]
      concatenates_S128x32x64x1_S128x32x64x1_S128x32x64x2_d3) shapeCasts_S128x32x64x2_S128x32x128) (broadcast S128x32x128 8#32))
    (subi (shapeCast S128x32x128 (concatenate S128x32x64x2 3
      [⟨S128x32x64x1, shapeCast S128x32x64x1 (andi v7 (broadcast S128x32x64 15#32)) shapeCasts_S128x32x64_S128x32x64x1⟩,
       ⟨S128x32x64x1, shapeCast S128x32x64x1 (andi (shrsi v7 (broadcast S128x32x64 4#32)) (broadcast S128x32x64 15#32)) shapeCasts_S128x32x64_S128x32x64x1⟩]
      concatenates_S128x32x64x1_S128x32x64x1_S128x32x64x2_d3) shapeCasts_S128x32x64x2_S128x32x128) (broadcast S128x32x128 16#32))
    (shapeCast S128x32x128 (concatenate S128x32x64x2 3
      [⟨S128x32x64x1, shapeCast S128x32x64x1 (andi v7 (broadcast S128x32x64 15#32)) shapeCasts_S128x32x64_S128x32x64x1⟩,
       ⟨S128x32x64x1, shapeCast S128x32x64x1 (andi (shrsi v7 (broadcast S128x32x64 4#32)) (broadcast S128x32x64 15#32)) shapeCasts_S128x32x64_S128x32x64x1⟩]
      concatenates_S128x32x64x1_S128x32x64x1_S128x32x64x2_d3) shapeCasts_S128x32x64x2_S128x32x128)

/-- Entry (o, g, l) of that array is the signed reading of field l % 2 of packed word (o, g, l / 2). -/
theorem signedFields_apply (v7 : Vec Ideal S128x32x64 .i32) (o : Fin 128) (g : Fin 32) (l : Fin 128) :
    signedFields v7 (ix3 o g l) = signed (field (v7 (ix3 o g ⟨l.val / 2, by have := l.isLt; omega⟩)) (l.val % 2)) := by
  have e : (shapeCast S128x32x128 (concatenate S128x32x64x2 3
      [⟨S128x32x64x1, shapeCast S128x32x64x1 (andi v7 (broadcast S128x32x64 15#32)) shapeCasts_S128x32x64_S128x32x64x1⟩,
       ⟨S128x32x64x1, shapeCast S128x32x64x1 (andi (shrsi v7 (broadcast S128x32x64 4#32)) (broadcast S128x32x64 15#32)) shapeCasts_S128x32x64_S128x32x64x1⟩]
      concatenates_S128x32x64x1_S128x32x64x1_S128x32x64x2_d3) shapeCasts_S128x32x64x2_S128x32x128 : IVec S128x32x128 32) (ix3 o g l)
      = field (v7 (ix3 o g ⟨l.val / 2, by have := l.isLt; omega⟩)) (l.val % 2) := by
    rw [flatten_pairs_apply]
    exact joined_fields_apply v7 _ _ _
      (fun o g w => add_last_axis_apply _ _ o g w)
      (fun o g w => add_last_axis_apply _ _ o g w) o g _ _
  show Scalar.select (IntOp.cmpi .sge _ 8#32) (IntOp.subi _ 16#32) _ = _
  rw [e]
  rfl

/-- The weight operand of the contraction at (c, k): the dequantized weight of the tile. -/
theorem weight_apply (v7 : Vec Ideal S128x32x64 .i32) (v24 : Vec Ideal S128x32x1 .f32) (c : Fin 128) (k : Fin 4096) :
    (truncf .bf16 (shapeCast S128x4096 (mulf (sitofp (F := Ideal) .f32 (signedFields v7))
        (broadcastTo S128x32x128 v24 broadcasts_S128x32x1_S128x32x128)) shapeCasts_S128x32x128_S128x4096)
      bitsLt_bf16_f32 : FVec Ideal S128x4096 .bf16) (ix2 c k) = wAt v7 v24 c k :=
  tile_apply v7 v24 (signedFields v7) (broadcastTo S128x32x128 v24 broadcasts_S128x32x1_S128x32x128)
    shapeCasts_S128x32x128_S128x4096 (signedFields_apply v7)
    (fun o g l => broadcastTo_apply v24 broadcasts_S128x32x1_S128x32x128 (ix3 o g l) (ix3 o g ⟨0, Nat.one_pos⟩) (fun a => by
      match a with
      | ⟨0, _⟩ => rfl
      | ⟨1, _⟩ => rfl
      | ⟨2, _⟩ => rfl)) c k

/-- The bias spread over the rows, at (r, c). -/
theorem bias_apply (v30 : Vec Ideal S1x128 .f32) (r : Fin 256) (c : Fin 128) :
    (broadcastTo S256x128 (shapeCast S1x128 v30 shapeCasts_S1x128_S1x128) broadcasts_S1x128_S256x128 : FVec Ideal S256x128 .f32) (ix2 r c)
      = v30 (ix2 ⟨0, Nat.one_pos⟩ c) := by
  rw [shapeCast_self,
    broadcastTo_apply v30 broadcasts_S1x128_S256x128 (ix2 r c) (ix2 ⟨0, Nat.one_pos⟩ c) (fun a => by
      match a with
      | ⟨0, _⟩ => rfl
      | ⟨1, _⟩ => rfl)]

/-- THE STORED BLOCK at (r, c). -/
theorem pay_apply (v0 : Vec Ideal S256x4096 .f32) (v2 : Vec Ideal S1x4096 .f32) (v7 : Vec Ideal S128x32x64 .i32)
    (v24 : Vec Ideal S128x32x1 .f32) (v30 : Vec Ideal S1x128 .f32) (r : Fin 256) (c : Fin 128) :
    k0_pay1 (F := Ideal) v0 v2 v7 v24 v30 (ix2 r c)
      = (∑ k : Fin 4096, (v0 (ix2 r k) * v2 (ix2 ⟨0, Nat.one_pos⟩ k)) * wAt v7 v24 c k) + v30 (ix2 ⟨0, Nat.one_pos⟩ c) := by
  unfold k0_pay1
  show FloatOps.matmul dot_S256x4096_S128x4096_S256x128_1_1_0_0_n_n none _ _ (constant S256x128 .f32 0x00000000#32) (ix2 r c)
      + (broadcastTo S256x128 (shapeCast S1x128 v30 shapeCasts_S1x128_S1x128) broadcasts_S1x128_S256x128 : FVec Ideal S256x128 .f32) (ix2 r c) = _
  rw [bias_apply, DotLastAxes.matmul_zero_apply dot_S256x4096_S128x4096_S256x128_1_1_0_0_n_n rfl rfl rfl rfl rfl rfl]
  refine congrArg (· + v30 (ix2 ⟨0, Nat.one_pos⟩ c)) (Finset.sum_congr rfl fun k _ => ?_)
  rw [act_apply]
  exact congrArg (v0 (ix2 r k) * v2 (ix2 ⟨0, Nat.one_pos⟩ k) * ·) (weight_apply v7 v24 c k)

end Cert.KernelIdeal.Tile

end
-- ==== Proof.Result.lean ====
/-
  The result both programs compute, as one function of the five argument arrays: at batch b, position s and
  output feature o, the sum over the 4096 input features k of (x[b, s, k] * inv[k]) * w[o, k], plus bias[o], where
  w is the dequantized weight table (Dequant.lean). No rearrangement of the sum is involved: the two programs form
  the same products in the same grouping, so the inputs' finiteness is never used.
-/
import proofs.«406505_j26113401159880_1_alg».proof.Proof.Dequant

noncomputable section

open scoped BigOperators

namespace Cert.Result

open Idealize.ShloMosaic Idealize.ShloMosaic.ValueIdx Cert.Dequant

/-- The result at explicit coordinates. -/
def at3 (x : (⟨3, ![4, 2048, 4096]⟩ : Shape).Idx → EReal) (P : (⟨3, ![11008, 32, 64]⟩ : Shape).Idx → BitVec 32)
    (Sc : (⟨3, ![11008, 32, 1]⟩ : Shape).Idx → EReal) (inv : (⟨1, ![4096]⟩ : Shape).Idx → EReal)
    (bias : (⟨1, ![11008]⟩ : Shape).Idx → EReal) (b : Fin 4) (s : Fin 2048) (o : Fin 11008) : EReal :=
  (∑ k : Fin 4096, (x (ix3 b s k) * inv (ix1 k)) * wAt P Sc o k) + bias (ix1 o)

/-- The result array. -/
def G (x : (⟨3, ![4, 2048, 4096]⟩ : Shape).Idx → EReal) (P : (⟨3, ![11008, 32, 64]⟩ : Shape).Idx → BitVec 32)
    (Sc : (⟨3, ![11008, 32, 1]⟩ : Shape).Idx → EReal) (inv : (⟨1, ![4096]⟩ : Shape).Idx → EReal)
    (bias : (⟨1, ![11008]⟩ : Shape).Idx → EReal) : (⟨3, ![4, 2048, 11008]⟩ : Shape).Idx → EReal :=
  fun i => at3 x P Sc inv bias ⟨(i 0).val, (i 0).isLt⟩ ⟨(i 1).val, (i 1).isLt⟩ ⟨(i 2).val, (i 2).isLt⟩

theorem G_apply (x : (⟨3, ![4, 2048, 4096]⟩ : Shape).Idx → EReal) (P : (⟨3, ![11008, 32, 64]⟩ : Shape).Idx → BitVec 32)
    (Sc : (⟨3, ![11008, 32, 1]⟩ : Shape).Idx → EReal) (inv : (⟨1, ![4096]⟩ : Shape).Idx → EReal)
    (bias : (⟨1, ![11008]⟩ : Shape).Idx → EReal) (b : Fin 4) (s : Fin 2048) (o : Fin 11008) :
    G x P Sc inv bias (ix3 b s o) = at3 x P Sc inv bias b s o := rfl

end Cert.Result

end
-- ==== Proof.KernelValue.lean ====
/-
  What the kernel's program leaves in its result. The pipelined call works on a 32 by 86 grid of tiles: point
  (mi, ni) reads rows mi * 256 .. of the flattened activations, packed rows and scale rows ni * 128 .., the whole row of
  inverse scales and columns ni * 128 .. of the bias row, and writes back tile (mi, ni) of the [8192, 11008] product.
  Every tile is a restriction of ONE function of the arrays the call finds (`prod`), the tiles cover the array, so
  the array ends holding that function; the reshapes around the call flatten batch and position before it and split
  them again after it, which turns `prod` into the result function of Result.lean.
-/
import proofs.«406505_j26113401159880_1_alg».proof.Proof.Gen.KernelIdeal.Frame
import proofs.«406505_j26113401159880_1_alg».proof.Proof.TilePayload
import proofs.«406505_j26113401159880_1_alg».proof.Proof.Result
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
  Idealize.SL.Sem Cert.Dequant Cert.Result Cert.KernelIdeal.Tile

variable (m : (ℓ : Loc nD τ sig) → Buf (Elt Ideal) ℓ) (ρ : Dev nD → PrngReg)

/-! ## The product as one function of the arrays the call finds -/

/-- Entry (p, q) of the [8192, 11008] product: flattened activation row p against weight row q, plus bias q. -/
def prodAt (X : S8192x4096.Idx → EReal) (P : S11008x32x64.Idx → BitVec 32) (Sc : S11008x32x1.Idx → EReal)
    (I : S1x4096.Idx → EReal) (B : S1x11008.Idx → EReal) (p : Fin 8192) (q : Fin 11008) : EReal :=
  (∑ k : Fin 4096, (X (ix2 p k) * I (ix2 ⟨0, Nat.one_pos⟩ k)) * wAt P Sc q k) + B (ix2 ⟨0, Nat.one_pos⟩ q)

/-- The product array. -/
def prod (X : S8192x4096.Idx → EReal) (P : S11008x32x64.Idx → BitVec 32) (Sc : S11008x32x1.Idx → EReal)
    (I : S1x4096.Idx → EReal) (B : S1x11008.Idx → EReal) : S8192x11008.Idx → EReal :=
  fun j => prodAt X P Sc I B ⟨(j 0).val, (j 0).isLt⟩ ⟨(j 1).val, (j 1).isLt⟩

/-- A tile of the product from the tile's blocks: if the five blocks are the arrays read at tile (mi, ni), what the body
    stores is the product read there. -/
theorem tile_eq (X : S8192x4096.Idx → EReal) (P : S11008x32x64.Idx → BitVec 32) (Sc : S11008x32x1.Idx → EReal)
    (I : S1x4096.Idx → EReal) (B : S1x11008.Idx → EReal)
    (x0 : Vec Ideal S256x4096 .f32) (x1 : Vec Ideal S128x32x64 .i32) (x2 : Vec Ideal S128x32x1 .f32)
    (x3 : Vec Ideal S1x4096 .f32) (x4 : Vec Ideal S1x128 .f32) (mi ni : Nat) (hmi : mi < 32) (hni : ni < 86)
    (h0 : ∀ (r : Fin 256) (k : Fin 4096), x0 (ix2 r k) = X (ix2 ⟨mi * 256 + r.val, by have := r.isLt; omega⟩ k))
    (h1 : ∀ (cc : Fin 128) (g : Fin 32) (w : Fin 64), x1 (ix3 cc g w) = P (ix3 ⟨ni * 128 + cc.val, by have := cc.isLt; omega⟩ g w))
    (h2 : ∀ (cc : Fin 128) (g : Fin 32), x2 (ix3 cc g ⟨0, Nat.one_pos⟩) = Sc (ix3 ⟨ni * 128 + cc.val, by have := cc.isLt; omega⟩ g ⟨0, Nat.one_pos⟩))
    (h3 : ∀ (k : Fin 4096), x3 (ix2 ⟨0, Nat.one_pos⟩ k) = I (ix2 ⟨0, Nat.one_pos⟩ k))
    (h4 : ∀ (cc : Fin 128), x4 (ix2 ⟨0, Nat.one_pos⟩ cc) = B (ix2 ⟨0, Nat.one_pos⟩ ⟨ni * 128 + cc.val, by have := cc.isLt; omega⟩)) :
    k0_pay1 (F := Ideal) x0 x3 x1 x2 x4
      = fun j : S256x128.Idx => prodAt X P Sc I B ⟨mi * 256 + (j 0).val, by have := (j 0).isLt; have : (j 0).val < 256 := this; omega⟩
          ⟨ni * 128 + (j 1).val, by have := (j 1).isLt; have : (j 1).val < 128 := this; omega⟩ := by
  funext j
  obtain ⟨r, cc, rfl⟩ : ∃ (r : Fin 256) (cc : Fin 128), j = ix2 r cc := ⟨j 0, j 1, eq_ix2 j⟩
  rw [pay_apply]
  unfold prodAt
  rw [h4]
  refine congrArg (· + B (ix2 ⟨0, Nat.one_pos⟩ ⟨ni * 128 + cc.val, by have := cc.isLt; omega⟩)) (Finset.sum_congr rfl fun k _ => ?_)
  rw [h0, h3]
  refine congrArg (X (ix2 ⟨mi * 256 + r.val, by have := r.isLt; omega⟩ k) * I (ix2 ⟨0, Nat.one_pos⟩ k) * ·) ?_
  unfold wAt entry
  rw [h1, h2]

/-! ## The printed index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point t is tile (t / 86, t % 86) of the output; the activations follow its row, the packed rows, the scales and
    the bias its column, and the inverse scales stay. -/
theorem idx_facts : ∀ t : Fin cfg0.N,
    win0_5.index t (0 : Fin 2) = t.val / 86 ∧ win0_5.index t (1 : Fin 2) = t.val % 86
    ∧ win0_0.index t (0 : Fin 2) = t.val / 86 ∧ win0_0.index t (1 : Fin 2) = 0
    ∧ win0_1.index t (0 : Fin 3) = t.val % 86 ∧ win0_1.index t (1 : Fin 3) = 0 ∧ win0_1.index t (2 : Fin 3) = 0
    ∧ win0_2.index t (0 : Fin 3) = t.val % 86 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = t.val % 86 :=
  (by decide +kernel : ∀ t : Fin grid0.N, _)

/-! ## What a point writes back -/

/-- The arrays the call finds. -/
abbrev Xa (c : Dev nD) : S8192x4096.Idx → EReal := V m c main_v0
abbrev Pa (c : Dev nD) : S11008x32x64.Idx → BitVec 32 := V m c main_arg1
abbrev Sa (c : Dev nD) : S11008x32x1.Idx → EReal := V m c main_arg2
abbrev Ia (c : Dev nD) : S1x4096.Idx → EReal := V m c main_v1
abbrev Ba (c : Dev nD) : S1x11008.Idx → EReal := V m c main_v2

/-- WHAT POINT t WRITES BACK is tile t of the product of the arrays the call finds. -/
theorem flushed_eq (c : Dev nD) (t : Fin cfg0.N) :
    (dats m 0 c).flushed 5 t = ((cfg0.win 5).blk t).view.read (Elt Ideal) (prod (Xa m c) (Pa m c) (Sa m c) (Ia m c) (Ba m c)) := by
  show (cfg0.win 5).cut (grid0.coords t) ((dats m 0 c).after 5 t) = _
  rw [after0_5]
  unfold out0_5
  rw [View.canon_unit_zero hz2]
  simp only [View.ld_unit_zero (S := S256x4096) hz2, View.ld_unit_zero (S := S1x4096) hz2, View.ld_unit_zero (S := S128x32x64) hz3,
    View.ld_unit_zero (S := S128x32x1) hz3, View.ld_unit_zero (S := S1x128) hz2]
  obtain ⟨e50, e51, e00, e01, e10, e11, e12, e20, e21, e22, e30, e31, e40, e41⟩ := idx_facts t
  have ht : t.val < 2752 := lt_of_lt_of_eq t.isLt N_0
  rw [tile_eq (Xa m c) (Pa m c) (Sa m c) (Ia m c) (Ba m c) (iblk m c 0 t) (iblk m c 1 t) (iblk m c 2 t) (iblk m c 3 t) (iblk m c 4 t)
    (t.val / 86) (t.val % 86) (by omega) (by omega) ?_ ?_ ?_ ?_ ?_]
  · funext j
    have a0 : ((((cfg0.win 5).blk t).view.emb j) 0).val = t.val / 86 * 256 + (j 0).val := by
      show win0_5.index t (0 : Fin 2) * 256 + 1 * (j 0).val = _
      omega
    have a1 : ((((cfg0.win 5).blk t).view.emb j) 1).val = t.val % 86 * 128 + (j 1).val := by
      show win0_5.index t (1 : Fin 2) * 128 + 1 * (j 1).val = _
      omega
    show prodAt _ _ _ _ _ ⟨t.val / 86 * 256 + (j 0).val, _⟩ ⟨t.val % 86 * 128 + (j 1).val, _⟩
      = prod _ _ _ _ _ (((cfg0.win 5).blk t).view.emb j)
    unfold prod
    exact congrArg₂ (prodAt _ _ _ _ _) (Fin.ext a0.symm) (Fin.ext a1.symm)
  · intro r k
    show V m c main_v0 (((cfg0.win 0).blk t).view.emb (ix2 r k)) = V m c main_v0 _
    refine congrArg _ (funext fun a => Fin.ext ?_)
    match a with
    | ⟨0, _⟩ => show win0_0.index t (0 : Fin 2) * 256 + 1 * r.val = t.val / 86 * 256 + r.val; omega
    | ⟨1, _⟩ => show win0_0.index t (1 : Fin 2) * 4096 + 1 * k.val = k.val; omega
  · intro cc g w
    show V m c main_arg1 (((cfg0.win 1).blk t).view.emb (ix3 cc g w)) = V m c main_arg1 _
    refine congrArg _ (funext fun a => Fin.ext ?_)
    match a with
    | ⟨0, _⟩ => show win0_1.index t (0 : Fin 3) * 128 + 1 * cc.val = t.val % 86 * 128 + cc.val; omega
    | ⟨1, _⟩ => show win0_1.index t (1 : Fin 3) * 32 + 1 * g.val = g.val; omega
    | ⟨2, _⟩ => show win0_1.index t (2 : Fin 3) * 64 + 1 * w.val = w.val; omega
  · intro cc g
    show V m c main_arg2 (((cfg0.win 2).blk t).view.emb (ix3 cc g ⟨0, Nat.one_pos⟩)) = V m c main_arg2 _
    refine congrArg _ (funext fun a => Fin.ext ?_)
    match a with
    | ⟨0, _⟩ => show win0_2.index t (0 : Fin 3) * 128 + 1 * cc.val = t.val % 86 * 128 + cc.val; omega
    | ⟨1, _⟩ => show win0_2.index t (1 : Fin 3) * 32 + 1 * g.val = g.val; omega
    | ⟨2, _⟩ => show win0_2.index t (2 : Fin 3) * 1 + 1 * 0 = 0; omega
  · intro k
    show V m c main_v1 (((cfg0.win 3).blk t).view.emb (ix2 ⟨0, Nat.one_pos⟩ k)) = V m c main_v1 _
    refine congrArg _ (funext fun a => Fin.ext ?_)
    match a with
    | ⟨0, _⟩ => show win0_3.index t (0 : Fin 2) * 1 + 1 * 0 = 0; omega
    | ⟨1, _⟩ => show win0_3.index t (1 : Fin 2) * 4096 + 1 * k.val = k.val; omega
  · intro cc
    show V m c main_v2 (((cfg0.win 4).blk t).view.emb (ix2 ⟨0, Nat.one_pos⟩ cc)) = V m c main_v2 _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * cc.val = t.val % 86 * 128 + cc.val; omega

/-! ## The array after the call -/

/-- An index of the product array is in point t's tile iff each coordinate is in the tile's range on its axis. -/
theorem mem_blk (t : Fin cfg0.N) (i : S8192x11008.Idx) :
    i ∈ ((cfg0.win 5).blk t).view.set ↔ ∀ a : Fin 2, win0_5.index t a * S256x128.size a ≤ (i a).val
      ∧ (i a).val < win0_5.index t a * S256x128.size a + S256x128.size a := by
  show i ∈ ((View.whole main_v3).slice (win0_5.rect t)).set ↔ _
  rw [View.set_slice_whole, Rect.mem_set_unit]
  exact Iff.rfl

/-- Entry (p, q) lies in the tile of point (p / 256) * 86 + q / 128. -/
theorem covered (i : S8192x11008.Idx) :
    ∃ t : Fin cfg0.N, (cfg0.win 5).flush t = true ∧ i ∈ ((cfg0.win 5).blk t).view.set := by
  have hi0 : (i 0).val < 8192 := (i 0).isLt
  have hi1 : (i 1).val < 11008 := (i 1).isLt
  have hN : (i 0).val / 256 * 86 + (i 1).val / 128 < cfg0.N := by
    show _ < grid0.N
    rw [N_0]
    omega
  refine ⟨⟨(i 0).val / 256 * 86 + (i 1).val / 128, hN⟩, flush0_5 _, ?_⟩
  rw [mem_blk]
  obtain ⟨e50, e51, -⟩ := idx_facts ⟨(i 0).val / 256 * 86 + (i 1).val / 128, hN⟩
  have f0 : win0_5.index ⟨(i 0).val / 256 * 86 + (i 1).val / 128, hN⟩ (0 : Fin 2) = (i 0).val / 256 := by
    rw [e50]; show ((i 0).val / 256 * 86 + (i 1).val / 128) / 86 = _; omega
  have f1 : win0_5.index ⟨(i 0).val / 256 * 86 + (i 1).val / 128, hN⟩ (1 : Fin 2) = (i 1).val / 128 := by
    rw [e51]; show ((i 0).val / 256 * 86 + (i 1).val / 128) % 86 = _; omega
  intro a
  match a with
  | ⟨0, _⟩ =>
    show win0_5.index _ (0 : Fin 2) * 256 ≤ (i 0).val ∧ (i 0).val < win0_5.index _ (0 : Fin 2) * 256 + 256
    rw [f0]; omega
  | ⟨1, _⟩ =>
    show win0_5.index _ (1 : Fin 2) * 128 ≤ (i 1).val ∧ (i 1).val < win0_5.index _ (1 : Fin 2) * 128 + 128
    rw [f1]; omega

/-- THE PRODUCT ARRAY after the call. -/
theorem final (c : Dev nD) : (dats m 0 c).arrAt 5 cfg0.N = prod (Xa m c) (Pa m c) (Sa m c) (Ia m c) (Ba m c) :=
  (dats m 0 c).arrAt_eq_of_cover 5 _ (fun t _ => flushed_eq m c t) covered

/-! ## The reshapes around the call -/

/-- The flattened activations: row b * 2048 + s is (b, s). -/
theorem Xa_apply (c : Dev nD) (b : Fin 4) (s : Fin 2048) (k : Fin 4096) :
    Xa m c (ix2 ⟨b.val * 2048 + s.val, by have := b.isLt; have := s.isLt; omega⟩ k) = m ((c.tc : Thread nD τ).loc main_arg0) (ix3 b s k) := by
  have e : Xa m c = shapeCast S8192x4096 (m ((c.tc : Thread nD τ).loc main_arg0)) shapeCasts_S4x2048x4096_S8192x4096 := by
    show StableHlo.after hostOps0 (fun b => m (c, b)) (Proc.devRef .tc main_v0) = _
    after_results
    rfl
  rw [e]
  refine shapeCast_apply _ _ _ _ ?_
  show (S4x2048x4096.rowMajor (ix3 b s k)).val = (S8192x4096.rowMajor (ix2 _ k)).val
  rw [Shape.rowMajor_val_three, Shape.rowMajor_val_two]
  show (b.val * 2048 + s.val) * 4096 + k.val = (b.val * 2048 + s.val) * 4096 + k.val
  rfl

/-- The inverse scales as a row. -/
theorem Ia_apply (c : Dev nD) (k : Fin 4096) :
    Ia m c (ix2 ⟨0, Nat.one_pos⟩ k) = m ((c.tc : Thread nD τ).loc main_arg3) (ix1 k) := by
  have e : Ia m c = shapeCast S1x4096 (m ((c.tc : Thread nD τ).loc main_arg3)) shapeCasts_S4096_S1x4096 := by
    show StableHlo.after hostOps0 (fun b => m (c, b)) (Proc.devRef .tc main_v1) = _
    after_results
    rfl
  rw [e]
  refine shapeCast_apply _ _ _ _ ?_
  show (S4096.rowMajor (ix1 k)).val = (S1x4096.rowMajor (ix2 _ k)).val
  rw [Shape.rowMajor_val_one, Shape.rowMajor_val_two]
  show k.val = 0 * 4096 + k.val
  omega

/-- The bias as a row. -/
theorem Ba_apply (c : Dev nD) (o : Fin 11008) :
    Ba m c (ix2 ⟨0, Nat.one_pos⟩ o) = m ((c.tc : Thread nD τ).loc main_arg4) (ix1 o) := by
  have e : Ba m c = shapeCast S1x11008 (m ((c.tc : Thread nD τ).loc main_arg4)) shapeCasts_S11008_S1x11008 := by
    show StableHlo.after hostOps0 (fun b => m (c, b)) (Proc.devRef .tc main_v2) = _
    after_results
    rfl
  rw [e]
  refine shapeCast_apply _ _ _ _ ?_
  show (S11008.rowMajor (ix1 o)).val = (S1x11008.rowMajor (ix2 _ o)).val
  rw [Shape.rowMajor_val_one, Shape.rowMajor_val_two]
  show o.val = 0 * 11008 + o.val
  omega

/-- What the last reshape reads: the product array the call left. -/
theorem prod_tail (c : Dev nD) :
    Pipeline.withArrays spec0 c (V0 m c) (fun w => (dats m 0 c).arrAt w cfg0.N) (Proc.devRef .tc main_v3)
      = prod (Xa m c) (Pa m c) (Sa m c) (Ia m c) (Ba m c) :=
  (Pipeline.withArrays_arr spec0 launch0.win.arr_inj c _ _ 5).trans (final m c)

/-- THE RESULT after the last reshape is the result function of the argument arrays. -/
theorem result_eq (c : Dev nD) :
    Pipeline.afterTail₀ cfgs (dats m) 0 (V0 m) [hostOps1] c main_v4
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Pipeline.afterTail₀
  show StableHlo.after hostOps1 _ (Proc.devRef .tc main_v4) = _
  after_results
  funext i
  obtain ⟨b, s, o, rfl⟩ : ∃ (b : Fin 4) (s : Fin 2048) (o : Fin 11008), i = ix3 b s o := ⟨i 0, i 1, i 2, eq_ix3 i⟩
  show shapeCast S4x2048x11008 (Pipeline.withArrays spec0 c (V0 m c) (fun w => (dats m 0 c).arrAt w cfg0.N) (Proc.devRef .tc main_v3))
    shapeCasts_S8192x11008_S4x2048x11008 (ix3 b s o) = _
  rw [prod_tail, G_apply]
  refine (shapeCast_apply _ shapeCasts_S8192x11008_S4x2048x11008 (ix3 b s o)
    (ix2 ⟨b.val * 2048 + s.val, by have := b.isLt; have := s.isLt; omega⟩ o) ?_).trans ?_
  · show (S8192x11008.rowMajor (ix2 _ o)).val = (S4x2048x11008.rowMajor (ix3 b s o)).val
    rw [Shape.rowMajor_val_two, Shape.rowMajor_val_three]
    show (b.val * 2048 + s.val) * 11008 + o.val = (b.val * 2048 + s.val) * 11008 + o.val
    rfl
  · show prodAt (Xa m c) (Pa m c) (Sa m c) (Ia m c) (Ba m c) ⟨b.val * 2048 + s.val, by have := b.isLt; have := s.isLt; omega⟩ o
      = at3 _ _ _ _ _ b s o
    unfold prodAt at3
    rw [Ba_apply, show Pa m c = m ((c.tc : Thread nD τ).loc main_arg1) from V_main_arg1 m c,
      show Sa m c = m ((c.tc : Thread nD τ).loc main_arg2) from V_main_arg2 m c]
    refine congrArg (· + m ((c.tc : Thread nD τ).loc main_arg4) (ix1 o)) (Finset.sum_congr rfl fun k _ => ?_)
    rw [Xa_apply, Ia_apply]

/-! ## The run, read -/

/-- Every weakly fair execution of the kernel's program ends with the result array at the result function of the
    argument arrays, and the arguments as they were. -/
theorem run : θ_run defs (onTc (τ := τ) (main (F := Ideal))) ⟨m, fun _ => 0, ρ⟩ (fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KValue

end
-- ==== Proof.RefValue.lean ====
/-
  The reference computes the result function. Its table of weights is the dequantized table: the low and the high
  fields joined, read as signed, flattened, converted and scaled, at (o, k) give the weight of Dequant.lean; its
  contraction of the scaled activations with that table over the input features is the sum of the result function;
  the bias is spread over batch and position.
-/
import proofs.«406505_j26113401159880_1_alg».proof.Proof.Gen.ReferenceIdeal.Read
import proofs.«406505_j26113401159880_1_alg».proof.Proof.Result

noncomputable section

open scoped BigOperators

namespace Cert.ReferenceIdeal.RefValue

open Cert.ReferenceIdeal Cert.ReferenceIdeal.Gen Cert.ReferenceIdeal.Read Idealize.ShloMosaic Idealize.ShloMosaic.ValueIdx
  Cert.Dequant Cert.Result

/-- The low fields with their unit last axis, at (o, g, w, 0). -/
theorem low_apply (x1 : (⟨S11008x32x64, .i32⟩ : BufTy).Contents (Elt Ideal)) (o : Fin 11008) (g : Fin 32) (w : Fin 64) :
    val_main_v6 (F := Ideal) x1 (ix4 o g w ⟨0, Nat.one_pos⟩) = IntOp.andi (x1 (ix3 o g w)) 15#32 := by
  rw [val_main_v6_apply, val_main_v1_apply, val_main_v0_apply, val_main_c_apply]
  have e : idx_main_v6 (ix4 o g w ⟨0, Nat.one_pos⟩) = ix3 o g w := funext fun a => by
    match a with
    | ⟨0, _⟩ => rfl
    | ⟨1, _⟩ => rfl
    | ⟨2, _⟩ => rfl
  rw [e]

/-- The high fields with their unit last axis, at (o, g, w, 0). -/
theorem high_apply (x1 : (⟨S11008x32x64, .i32⟩ : BufTy).Contents (Elt Ideal)) (o : Fin 11008) (g : Fin 32) (w : Fin 64) :
    val_main_v7 (F := Ideal) x1 (ix4 o g w ⟨0, Nat.one_pos⟩)
      = IntOp.andi (IntOp.shrsi .vector (x1 (ix3 o g w)) 4#32) 15#32 := by
  rw [val_main_v7_apply, val_main_v5_apply, val_main_v3_apply, val_main_v2_apply, val_main_c_0_apply, val_main_v4_apply,
    val_main_c_1_apply, shrsi_four]
  have e : idx_main_v7 (ix4 o g w ⟨0, Nat.one_pos⟩) = ix3 o g w := funext fun a => by
    match a with
    | ⟨0, _⟩ => rfl
    | ⟨1, _⟩ => rfl
    | ⟨2, _⟩ => rfl
  rw [e]

/-- The flattened signed fields at (o, g, l). -/
theorem signed_apply (x1 : (⟨S11008x32x64, .i32⟩ : BufTy).Contents (Elt Ideal)) (o : Fin 11008) (g : Fin 32) (l : Fin 128) :
    val_main_v14 (F := Ideal) x1 (ix3 o g l)
      = signed (field (x1 (ix3 o g ⟨l.val / 2, by have := l.isLt; omega⟩)) (l.val % 2)) := by
  have e : ∀ (w : Fin 64) (b : Fin 2), val_main_v8 (F := Ideal) x1 (ix4 o g w b) = field (x1 (ix3 o g w)) b.val := fun w b =>
    joined_fields_apply x1 (val_main_v6 (F := Ideal) x1) (val_main_v7 (F := Ideal) x1) _ (low_apply x1) (high_apply x1) o g w b
  show shapeCast _ (val_main_v13 (F := Ideal) x1) shapeCasts_S11008x32x64x2_S11008x32x128 (ix3 o g l) = _
  rw [flatten_pairs_apply, val_main_v13_apply, val_main_v10_apply, val_main_v12_apply, val_main_v9_apply, val_main_c_2_apply,
    val_main_v11_apply, val_main_c_3_apply, e]
  rfl

/-- The reference's dense weight table at (o, k). -/
theorem table_apply (x1 : (⟨S11008x32x64, .i32⟩ : BufTy).Contents (Elt Ideal)) (x2 : (⟨S11008x32x1, .f32⟩ : BufTy).Contents (Elt Ideal))
    (o : Fin 11008) (k : Fin 4096) : val_main_v18 (F := Ideal) x1 x2 (ix2 o k) = wAt x1 x2 o k :=
  tile_apply x1 x2 (val_main_v14 (F := Ideal) x1) (val_main_v16 (F := Ideal) x2) shapeCasts_S11008x32x128_S11008x4096
    (signed_apply x1)
    (fun o g l => by
      rw [val_main_v16_apply]
      exact congrArg x2 (funext fun a => by
        match a with
        | ⟨0, _⟩ => rfl
        | ⟨1, _⟩ => rfl
        | ⟨2, _⟩ => rfl)) o k

/-- THE REFERENCE'S RESULT is the result function of the arguments. -/
theorem result_eq (x0 : (⟨S4x2048x4096, .f32⟩ : BufTy).Contents (Elt Ideal)) (x1 : (⟨S11008x32x64, .i32⟩ : BufTy).Contents (Elt Ideal))
    (x2 : (⟨S11008x32x1, .f32⟩ : BufTy).Contents (Elt Ideal)) (x3 : (⟨S4096, .f32⟩ : BufTy).Contents (Elt Ideal))
    (x4 : (⟨S11008, .f32⟩ : BufTy).Contents (Elt Ideal)) :
    val_main_v25 (F := Ideal) x0 x1 x2 x3 x4 = G x0 x1 x2 x3 x4 := by
  funext i
  obtain ⟨b, s, o, rfl⟩ : ∃ (b : Fin 4) (s : Fin 2048) (o : Fin 11008), i = ix3 b s o := ⟨i 0, i 1, i 2, eq_ix3 i⟩
  rw [G_apply, val_main_v25_apply, val_main_v22_apply, val_main_v24_apply, val_main_v23_apply]
  have eb : idx_main_v23 (idx_main_v24 (ix3 b s o)) = ix1 o := funext fun a => by
    match a with
    | ⟨0, _⟩ => rfl
  rw [eb]
  show (∑ k : Fin 4096, _) + x4 (ix1 o) = _
  unfold at3
  refine congrArg (· + x4 (ix1 o)) (Finset.sum_congr rfl fun k _ => ?_)
  have el : lidx_main_v22 (ix3 b s o) k = ix3 b s k := funext fun a => by
    match a with
    | ⟨0, _⟩ => rfl
    | ⟨1, _⟩ => rfl
    | ⟨2, _⟩ => rfl
  have er : ridx_main_v22 (ix3 b s o) k = ix2 o k := funext fun a => by
    match a with
    | ⟨0, _⟩ => rfl
    | ⟨1, _⟩ => rfl
  have ei : idx_main_v19 (idx_main_v20 (ix3 b s k)) = ix1 k := funext fun a => by
    match a with
    | ⟨0, _⟩ => rfl
  rw [el, er, table_apply, val_main_v21_apply, val_main_v20_apply, val_main_v19_apply, ei]
  rfl

end Cert.ReferenceIdeal.RefValue

end
-- ==== Proof.lean ====
/- A linear layer with 4-bit packed weights, against its plain reference. Both programs compute, at batch b, position
   s and output feature o, the sum over the 4096 input features k of (x[b, s, k] * inv[k]) * w[o, k], plus bias[o], where
   w[o, k] is the signed 4-bit field k % 2 of packed word (o, k / 128, (k % 128) / 2), as a real, times the scale of group
   k / 128 (Proof/Dequant.lean, Proof/Result.lean). The kernel forms it tile by tile on a 32 by 86 grid over the
   flattened batch and position, its two roundings to bf16 the identity on the extended reals (Proof/TilePayload.lean,
   Proof/KernelValue.lean); the reference forms the whole table and contracts once (Proof/RefValue.lean). The products
   and their grouping are the same on both sides and a sum over a finite index set does not depend on its order, so no
   law that needs finite operands is used and the precondition is not opened. The three frames are the generated frame
   runs (the reference's its generated run with the result dropped); the idealization rewrote nothing. -/
import proofs.«406505_j26113401159880_1_alg».proof.Defs
import proofs.«406505_j26113401159880_1_alg».proof.Proof.Gen.Kernel
import proofs.«406505_j26113401159880_1_alg».proof.Proof.Gen.Kernel.Skeleton
import proofs.«406505_j26113401159880_1_alg».proof.Proof.Gen.Kernel.Launch
import proofs.«406505_j26113401159880_1_alg».proof.Proof.Gen.Kernel.Points
import proofs.«406505_j26113401159880_1_alg».proof.Proof.Gen.Kernel.Frame
import proofs.«406505_j26113401159880_1_alg».proof.Proof.Gen.KernelIdeal
import proofs.«406505_j26113401159880_1_alg».proof.Proof.Gen.KernelIdeal.Skeleton
import proofs.«406505_j26113401159880_1_alg».proof.Proof.Gen.KernelIdeal.Launch
import proofs.«406505_j26113401159880_1_alg».proof.Proof.Gen.KernelIdeal.Points
import proofs.«406505_j26113401159880_1_alg».proof.Proof.Gen.KernelIdeal.Frame
import proofs.«406505_j26113401159880_1_alg».proof.Proof.Gen.ReferenceIdeal
import proofs.«406505_j26113401159880_1_alg».proof.Proof.Gen.Pre_finite_inputs
import proofs.«406505_j26113401159880_1_alg».proof.Proof.Gen.ReferenceIdeal.Run
import proofs.«406505_j26113401159880_1_alg».proof.Proof.Gen.ReferenceIdeal.Read
import proofs.«406505_j26113401159880_1_alg».proof.Proof.KernelValue
import proofs.«406505_j26113401159880_1_alg».proof.Proof.RefValue
import Idealize.ShloMosaic.Adequacy
import Idealize.ShloMosaic.Init

noncomputable section

namespace Cert.Proof

open Idealize.ShloMosaic Idealize.SL.Sem Cert.Kernel

/-- From memories that agree on the arguments both idealized programs end with the result function of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
